-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2000x80 : Shape := ⟨3, ![32, 2000, 80]⟩
abbrev S32 : Shape := ⟨1, ![32]⟩
abbrev S_ : Shape := ⟨0, ![]⟩

class Facts : Prop where
  bcast_S_S32x2000x80 : S_.BroadcastsInDim S32x2000x80 (![] : Fin 0 → Fin S32x2000x80.rank)
  reducesTo_S32x2000x80_S_d0_1_2 : S32x2000x80.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x2000x80 .f32) (main_arg1 : FVec F S32 .f32) : IVec S_ 1 :=
  let main_v0 : FVec F S32x2000x80 .f32 := Host.absf main_arg0
  let main_cst : FVec F S_ .f32 := constant S_ .f32 0x7F800000#32
  let main_v1 : FVec F S32x2000x80 .f32 := broadcastInDim S32x2000x80 ![] bcast_S_S32x2000x80 main_cst
  let main_v2 : IVec S32x2000x80 1 := cmpf .olt main_v0 main_v1
  let main_c : IVec S_ 1 := constantI S_ 1 1#1
  let main_v3 : IVec S_ 1 := (fun x v => Host.reduce IntOp.andi x v reducesTo_S32x2000x80_S_d0_1_2 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  main_v8
-- ==== Kernel.lean ====
abbrev S32x2000x80 : Shape := ⟨3, ![32, 2000, 80]⟩
abbrev S32 : Shape := ⟨1, ![32]⟩
abbrev S_ : Shape := ⟨0, ![]⟩
abbrev S32x2000x880 : Shape := ⟨3, ![32, 2000, 880]⟩
abbrev S1x2000x80 : Shape := ⟨3, ![1, 2000, 80]⟩
abbrev S1x200x880 : Shape := ⟨3, ![1, 200, 880]⟩
abbrev S2000x80 : Shape := ⟨2, ![2000, 80]⟩
abbrev S200x1 : Shape := ⟨2, ![200, 1]⟩
abbrev S1 : Shape := ⟨1, ![1]⟩
abbrev S200x80 : Shape := ⟨2, ![200, 80]⟩
abbrev S200x1x80 : Shape := ⟨3, ![200, 1, 80]⟩
abbrev S200x11x80 : Shape := ⟨3, ![200, 11, 80]⟩
abbrev S200x80x11 : Shape := ⟨3, ![200, 80, 11]⟩
abbrev S200x880 : Shape := ⟨2, ![200, 880]⟩

abbrev nBuf : Space → Nat
  | .hbm => 7
  | .vmem => 5
  | .smem => 1
  | _ => 0

abbrev bufTy : (tb : Table) → Fin (tcTables nBuf tb) → BufTy
  | .hbm, ⟨0, _⟩ => ⟨S32x2000x80, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x2000x880, .f32⟩
  | .local _ .vmem, ⟨0, _⟩ => ⟨S1x2000x80, .f32⟩
  | .local _ .vmem, ⟨1, _⟩ => ⟨S1x2000x80, .f32⟩
  | .local _ .vmem, ⟨2, _⟩ => ⟨S1x200x880, .f32⟩
  | .local _ .vmem, ⟨3, _⟩ => ⟨S1x200x880, .f32⟩
  | .local _ .vmem, ⟨4, _⟩ => ⟨S2000x80, .f32⟩
  | .local _ .smem, ⟨0, _⟩ => ⟨S32, .i32⟩
  | _, _ => ⟨S32x2000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v4 : Ref sig .tc := ⟨.hbm, 6, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 10], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c200_i32 : BitVec 32 := 200#32
  let v0 : BitVec 32 := Scalar.muli arg1 c200_i32
  v0
def k0_off1 (i : grid0.Coords) : Fin 1 → Nat :=
  let arg0 : BitVec 32 := BitVec.ofNat 32 (i 0).val
  let v7 : Index := Scalar.indexCast arg0
  ![v7.toNat]
def k0_off2 (i : grid0.Coords) : Fin 2 → Nat :=
  let arg1 : BitVec 32 := BitVec.ofNat 32 (i 1).val
  let c200_i32 : BitVec 32 := 200#32
  let v0 : BitVec 32 := Scalar.muli arg1 c200_i32
  let v1 : BitVec 32 := v0
  let v17 : Index := Scalar.indexCast v1
  let c0_4 : Index := 0#32
  ![v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x200x880 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S32 : S_.BroadcastsInDim S32 (![] : Fin 0 → Fin S32.rank)
  inb_S1x2000x80_S1x2000x80_0_0_0 : ∀ a, (![0, 0, 0] : Fin 3 → Nat) a + S1x2000x80.size a ≤ S1x2000x80.size a
  h_S1x2000x80 : 0 < S1x2000x80.numel
  shapeCasts_S1x2000x80_S2000x80 : S1x2000x80.ShapeCasts S2000x80
  iota_S200x1_d0_w32 : S200x1.Iotas .tc 32 [0]
  numel1_S1 : S1.numel = 1
  natLt_1_32 : 1 < 32
  rotates_S2000x80_d0 : S2000x80.Rotates 0 none
  inb_S2000x80_S2000x80_0_0 : ∀ a, (![0, 0] : Fin 2 → Nat) a + S2000x80.size a ≤ S2000x80.size a
  h_S2000x80 : 0 < S2000x80.numel
  shapeCasts_S2000x80_S2000x80 : S2000x80.ShapeCasts S2000x80
  h_S200x80 : 0 < S200x80.numel
  broadcasts_S200x1_S200x80 : S200x1.Broadcasts S200x80
  shapeCasts_S200x80_S200x1x80 : S200x80.ShapeCasts S200x1x80
  concatenates_S200x1x80_S200x1x80_S200x1x80_S200x1x80_S200x1x80_S200x1x80_S200x1x80_S200x1x80_S200x1x80_S200x1x80_S200x1x80_S200x11x80_d1 : Shape.Concatenates [S200x1x80, S200x1x80, S200x1x80, S200x1x80, S200x1x80, S200x1x80, S200x1x80, S200x1x80, S200x1x80, S200x1x80, S200x1x80] S200x11x80 1
  transposes_S200x11x80_p0_2_1_S200x80x11 : S200x11x80.Transposes [0, 2, 1] S200x80x11
  shapeCasts_S200x80x11_S200x880 : S200x80x11.ShapeCasts S200x880
  inb_S1x200x880_S1x200x880_0_0_0 : ∀ a, (![0, 0, 0] : Fin 3 → Nat) a + S1x200x880.size a ≤ S1x200x880.size a
  h_S1x200x880 : 0 < S1x200x880.numel
  shapeCasts_S1x200x880_S200x880 : S1x200x880.ShapeCasts S200x880
  shapeCasts_S200x880_S1x200x880 : S200x880.ShapeCasts S1x200x880
  hrank0 : 0 < grid0.rank
  k0_mult1_dvd : ∀ i : grid0.Coords, 200 ∣ (k0_mult1 i).toNat
  k0_off1_inb : ∀ i : grid0.Coords, ∀ a, (k0_off1 i) a + S1.size a ≤ S32.size a
  k0_off2_inb : ∀ i : grid0.Coords, ∀ a, (k0_off2 i) a + S200x80.size a ≤ S2000x80.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x80.size a ≤ S32x2000x80.size a
  hwx0_0 : ∀ i : grid0.Coords, EltTy.bits .f32 = 32 ∨ (Rect.block (s := S32x2000x80) S1x2000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x880.size a ≤ S32x2000x880.size a
  hwx0_1 : ∀ i : grid0.Coords, EltTy.bits .f32 = 32 ∨ (Rect.block (s := S32x2000x880) S1x200x880.size (cc0_transform_1 i) (hinb0_1 i)).WholeWords (EltTy.packing .f32)

variable [Facts₀]

abbrev spec0_0 : Pipeline.WinSpec sig grid0.rank :=
  Pipeline.WinSpec.ofSpec (Memref.whole main_arg0) S1x2000x80.size reads0_0 false false 2 stage0_0 sem0_0 nbuf0_0 hstage0_0

abbrev spec0_1 : Pipeline.WinSpec sig grid0.rank :=
  Pipeline.WinSpec.ofSpec (Memref.whole main_v4) S1x200x880.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S32x2000x80 : Shape := ⟨3, ![32, 2000, 80]⟩
abbrev S32 : Shape := ⟨1, ![32]⟩
abbrev S_ : Shape := ⟨0, ![]⟩
abbrev S32x2010x80 : Shape := ⟨3, ![32, 2010, 80]⟩
abbrev S32x2000x80x1 : Shape := ⟨4, ![32, 2000, 80, 1]⟩
abbrev S32x2000x80x11 : Shape := ⟨4, ![32, 2000, 80, 11]⟩
abbrev S32x2000x880 : Shape := ⟨3, ![32, 2000, 880]⟩
abbrev S2000 : Shape := ⟨1, ![2000]⟩
abbrev S1x2000 : Shape := ⟨2, ![1, 2000]⟩
abbrev S32x1 : Shape := ⟨2, ![32, 1]⟩
abbrev S32x2000 : Shape := ⟨2, ![32, 2000]⟩
abbrev S32x2000x1 : Shape := ⟨3, ![32, 2000, 1]⟩

abbrev nBuf : Space → Nat
  | .hbm => 44
  | .vmem => 0
  | .smem => 0
  | _ => 0

abbrev bufTy : (tb : Table) → Fin (tcTables nBuf tb) → BufTy
  | .hbm, ⟨0, _⟩ => ⟨S32x2000x80, .f32⟩
  | .hbm, ⟨1, _⟩ => ⟨S32, .f32⟩
  | .hbm, ⟨2, _⟩ => ⟨S_, .i32⟩
  | .hbm, ⟨3, _⟩ => ⟨S_, .f32⟩
  | .hbm, ⟨4, _⟩ => ⟨S32x2010x80, .f32⟩
  | .hbm, ⟨5, _⟩ => ⟨S32x2000x80, .f32⟩
  | .hbm, ⟨6, _⟩ => ⟨S32x2000x80, .f32⟩
  | .hbm, ⟨7, _⟩ => ⟨S32x2000x80, .f32⟩
  | .hbm, ⟨8, _⟩ => ⟨S32x2000x80, .f32⟩
  | .hbm, ⟨9, _⟩ => ⟨S32x2000x80, .f32⟩
  | .hbm, ⟨10, _⟩ => ⟨S32x2000x80, .f32⟩
  | .hbm, ⟨11, _⟩ => ⟨S32x2000x80, .f32⟩
  | .hbm, ⟨12, _⟩ => ⟨S32x2000x80, .f32⟩
  | .hbm, ⟨13, _⟩ => ⟨S32x2000x80, .f32⟩
  | .hbm, ⟨14, _⟩ => ⟨S32x2000x80, .f32⟩
  | .hbm, ⟨15, _⟩ => ⟨S32x2000x80, .f32⟩
  | .hbm, ⟨16, _⟩ => ⟨S32x2000x80x1, .f32⟩
  | .hbm, ⟨17, _⟩ => ⟨S32x2000x80x1, .f32⟩
  | .hbm, ⟨18, _⟩ => ⟨S32x2000x80x1, .f32⟩
  | .hbm, ⟨19, _⟩ => ⟨S32x2000x80x1, .f32⟩
  | .hbm, ⟨20, _⟩ => ⟨S32x2000x80x1, .f32⟩
  | .hbm, ⟨21, _⟩ => ⟨S32x2000x80x1, .f32⟩
  | .hbm, ⟨22, _⟩ => ⟨S32x2000x80x1, .f32⟩
  | .hbm, ⟨23, _⟩ => ⟨S32x2000x80x1, .f32⟩
  | .hbm, ⟨24, _⟩ => ⟨S32x2000x80x1, .f32⟩
  | .hbm, ⟨25, _⟩ => ⟨S32x2000x80x1, .f32⟩
  | .hbm, ⟨26, _⟩ => ⟨S32x2000x80x1, .f32⟩
  | .hbm, ⟨27, _⟩ => ⟨S32x2000x80x11, .f32⟩
  | .hbm, ⟨28, _⟩ => ⟨S32x2000x880, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S32, .i32⟩
  | .hbm, ⟨34, _⟩ => ⟨S2000, .i32⟩
  | .hbm, ⟨35, _⟩ => ⟨S1x2000, .i32⟩
  | .hbm, ⟨36, _⟩ => ⟨S32x1, .i32⟩
  | .hbm, ⟨37, _⟩ => ⟨S32x2000, .i32⟩
  | .hbm, ⟨38, _⟩ => ⟨S32x2000, .i32⟩
  | .hbm, ⟨39, _⟩ => ⟨S32x2000, .i1⟩
  | .hbm, ⟨40, _⟩ => ⟨S32x2000, .f32⟩
  | .hbm, ⟨41, _⟩ => ⟨S32x2000x1, .f32⟩
  | .hbm, ⟨42, _⟩ => ⟨S32x2000x880, .f32⟩
  | .hbm, ⟨43, _⟩ => ⟨S32x2000x880, .f32⟩
  | _, _ => ⟨S32x2000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]

class Facts₀ : Prop where
  pads_S32x2000x80_S32x2010x80_000_550_000 : S32x2000x80.Pads (![0, 5, 0] : Fin 3 → Nat) ![0, 5, 0] ![0, 0, 0] S32x2010x80
  h_S_ : 0 < S_.numel
  slices_S32x2010x80_S32x2000x80_0_0_0 : S32x2010x80.Slices ![0, 0, 0] S32x2000x80
  slices_S32x2010x80_S32x2000x80_0_1_0 : S32x2010x80.Slices ![0, 1, 0] S32x2000x80
  slices_S32x2010x80_S32x2000x80_0_2_0 : S32x2010x80.Slices ![0, 2, 0] S32x2000x80
  slices_S32x2010x80_S32x2000x80_0_3_0 : S32x2010x80.Slices ![0, 3, 0] S32x2000x80
  slices_S32x2010x80_S32x2000x80_0_4_0 : S32x2010x80.Slices ![0, 4, 0] S32x2000x80
  slices_S32x2010x80_S32x2000x80_0_5_0 : S32x2010x80.Slices ![0, 5, 0] S32x2000x80
  slices_S32x2010x80_S32x2000x80_0_6_0 : S32x2010x80.Slices ![0, 6, 0] S32x2000x80
  slices_S32x2010x80_S32x2000x80_0_7_0 : S32x2010x80.Slices ![0, 7, 0] S32x2000x80
  slices_S32x2010x80_S32x2000x80_0_8_0 : S32x2010x80.Slices ![0, 8, 0] S32x2000x80
  slices_S32x2010x80_S32x2000x80_0_9_0 : S32x2010x80.Slices ![0, 9, 0] S32x2000x80
  slices_S32x2010x80_S32x2000x80_0_10_0 : S32x2010x80.Slices ![0, 10, 0] S32x2000x80
  bcast_S32x2000x80_S32x2000x80x1_0_1_2 : S32x2000x80.BroadcastsInDim S32x2000x80x1 (![0, 1, 2] : Fin 3 → Fin S32x2000x80x1.rank)
  concatenates_S32x2000x80x1_S32x2000x80x1_S32x2000x80x1_S32x2000x80x1_S32x2000x80x1_S32x2000x80x1_S32x2000x80x1_S32x2000x80x1_S32x2000x80x1_S32x2000x80x1_S32x2000x80x1_S32x2000x80x11_d3 : Shape.Concatenates [S32x2000x80x1, S32x2000x80x1, S32x2000x80x1, S32x2000x80x1, S32x2000x80x1, S32x2000x80x1, S32x2000x80x1, S32x2000x80x1, S32x2000x80x1, S32x2000x80x1, S32x2000x80x1] S32x2000x80x11 3
  shapeCasts_S32x2000x80x11_S32x2000x880 : S32x2000x80x11.ShapeCasts S32x2000x880
  bcast_S_S32 : S_.BroadcastsInDim S32 (![] : Fin 0 → Fin S32.rank)
  bcast_S2000_S1x2000_1 : S2000.BroadcastsInDim S1x2000 (![1] : Fin 1 → Fin S1x2000.rank)
  bcast_S32_S32x1_0 : S32.BroadcastsInDim S32x1 (![0] : Fin 1 → Fin S32x1.rank)
  bcast_S1x2000_S32x2000_0_1 : S1x2000.BroadcastsInDim S32x2000 (![0, 1] : Fin 2 → Fin S32x2000.rank)
  bcast_S32x1_S32x2000_0_1 : S32x1.BroadcastsInDim S32x2000 (![0, 1] : Fin 2 → Fin S32x2000.rank)
  bcast_S32x2000_S32x2000x1_0_1 : S32x2000.BroadcastsInDim S32x2000x1 (![0, 1] : Fin 2 → Fin S32x2000x1.rank)
  bcast_S32x2000x1_S32x2000x880_0_1_2 : S32x2000x1.BroadcastsInDim S32x2000x880 (![0, 1, 2] : Fin 3 → Fin S32x2000x880.rank)

variable [Facts₀]

class Facts : Prop extends Facts₀ where

variable [Facts]
-- ==== Proof.Taps.lean ====
/-
  The eleven taps as machine words, and the two facts of 32-bit arithmetic the kernel's masks and rotations rest on.

  Tap `k` (0 ≤ k ≤ 10) reads frame `t + k - 5`. The kernel gets it by turning the whole sequence round by
  `5 - k` modulo 2000 (`turn`), and tells a real frame from a wrapped-around one by adding the word `k - 5` (`offs`)
  to the frame's number and comparing, signed, with 0 and with 2000. A frame's number is below 2000, so neither the sum
  nor the rotation's arithmetic wraps: both facts are checked on all 2000 × 11 cases.
-/
import Idealize.ShloMosaic.PureOps.Ideal

namespace Cert.Window

open Idealize.ShloMosaic

/-- How far tap `k` turns the sequence round (towards later frames, around the end): `5 - k` modulo 2000. -/
def turn : Fin 11 → BitVec 32 := ![5#32, 4#32, 3#32, 2#32, 1#32, 0#32, 1999#32, 1998#32, 1997#32, 1996#32, 1995#32]
/-- Tap `k`'s offset `k - 5`, as a 32-bit word. -/
def offs : Fin 11 → BitVec 32 := ![4294967291#32, 4294967292#32, 4294967293#32, 4294967294#32, 4294967295#32, 0#32, 1#32, 2#32, 3#32, 4#32, 5#32]

/-- "The tapped frame is a frame of the sequence", as the kernel tests it on words, is `5 ≤ t + k < 2005`. -/
theorem inside_bit : ∀ (t : Fin 2000) (k : Fin 11),
    IntOp.andi (IntOp.cmpi .sge (IntOp.addi (BitVec.ofNat 32 t.val) (offs k)) 0#32)
        (IntOp.cmpi .slt (IntOp.addi (BitVec.ofNat 32 t.val) (offs k)) 2000#32)
      = if 5 ≤ t.val + k.val ∧ t.val + k.val < 2005 then 1#1 else 0#1 := by
  decide +kernel

/-- Where the tapped frame is a frame of the sequence, the sequence turned round by `turn k` has it at frame `t`. -/
theorem turned_frame : ∀ (t : Fin 2000) (k : Fin 11), 5 ≤ t.val + k.val → t.val + k.val < 2005 →
    (t.val + 2000 - (turn k).toNat % 2000) % 2000 = t.val + k.val - 5 := by
  decide +kernel

end Cert.Window
-- ==== Proof.KernelTile.lean ====
/-
  What the kernel's body leaves at one grid point, as one term of the staged sequence and the length word.
-/
import proofs.«425264_j14869176779353_4_alg».proof.Proof.Gen.KernelIdeal.Frame
import proofs.«425264_j14869176779353_4_alg».proof.Proof.Taps
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Window

variable {F : FTy → Type} [FloatOps F]

/-! ## One grid point's tile, as one term

At grid point `(b, n)` the body holds sequence `b` whole (2000 frames of 80 channels) and writes frames
`200 n … 200 n + 199` of the result. For each of the eleven taps it turns the whole sequence round by the tap's
amount, keeps the tile's 200 frames of the turned sequence, and multiplies them by two 0/1 factors: "the frame is
before the length word" and "the tapped frame is a frame of the sequence". The eleven slabs are laid side by
side and the pair (tap, channel) is re-ordered to (channel, tap). -/

/-- The tile's frame numbers, as words: the tile's first frame plus the row. -/
def frames (i : grid0.Coords) : IVec S200x1 32 := k0_pay3 i
/-- The length mask's factor on the tile's frames. -/
def lenFactor (i : grid0.Coords) (len : Elt F .i32) : FVec F S200x1 .f32 := k0_pay4 i len
/-- The sequence turned round by `sh` frames. -/
def turned (x0 : Vec F S1x2000x80 .f32) (sh : BitVec 32) : FVec F S2000x80 .f32 :=
  shapeCast S2000x80 (dynamicRotate 0 sh none (shapeCast S2000x80 x0 shapeCasts_S1x2000x80_S2000x80) rotates_S2000x80_d0) shapeCasts_S2000x80_S2000x80
/-- The tile's 200 frames of a whole sequence. -/
def rows (i : grid0.Coords) (y : FVec F S2000x80 .f32) : Vec F S200x80 .f32 :=
  View.ld y (Rect.unit (s := S2000x80) (k0_off2 i) S200x80.size (k0_off2_inb i))
/-- One tap's slab: the loaded frames times the length factor times "the tapped frame exists". -/
def slab (v6 : IVec S200x1 32) (v12 : FVec F S200x1 .f32) (ld : Vec F S200x80 .f32) (s : BitVec 32) : FVec F S200x80 .f32 :=
  mulf ld (broadcastTo S200x80 (mulf v12 (sitofp .f32 (extui 32 (andi (cmpi .sge (addi v6 (broadcast S200x1 s)) (broadcast S200x1 0#32))
    (cmpi .slt (addi v6 (broadcast S200x1 s)) (broadcast S200x1 2000#32))) natLt_1_32))) broadcasts_S200x1_S200x80)
/-- Tap `k`'s slab at the point, with a unit axis for the tap. -/
def tapSlab (i : grid0.Coords) (len : Elt F .i32) (x0 : Vec F S1x2000x80 .f32) (k : Fin 11) : FVec F S200x1x80 .f32 :=
  shapeCast S200x1x80 (slab (frames i) (lenFactor i len) (rows i (turned x0 (turn k))) (offs k)) shapeCasts_S200x80_S200x1x80
/-- The point's tile. -/
def tile (i : grid0.Coords) (len : Elt F .i32) (x0 : Vec F S1x2000x80 .f32) : FVec F S1x200x880 .f32 :=
  shapeCast S1x200x880 (shapeCast S200x880 (transpose S200x80x11 [0, 2, 1]
    (concatenate S200x11x80 1 [⟨S200x1x80, tapSlab i len x0 0⟩, ⟨S200x1x80, tapSlab i len x0 1⟩, ⟨S200x1x80, tapSlab i len x0 2⟩, ⟨S200x1x80, tapSlab i len x0 3⟩, ⟨S200x1x80, tapSlab i len x0 4⟩, ⟨S200x1x80, tapSlab i len x0 5⟩, ⟨S200x1x80, tapSlab i len x0 6⟩, ⟨S200x1x80, tapSlab i len x0 7⟩, ⟨S200x1x80, tapSlab i len x0 8⟩, ⟨S200x1x80, tapSlab i len x0 9⟩, ⟨S200x1x80, tapSlab i len x0 10⟩]
      concatenates_S200x1x80_S200x1x80_S200x1x80_S200x1x80_S200x1x80_S200x1x80_S200x1x80_S200x1x80_S200x1x80_S200x1x80_S200x1x80_S200x11x80_d1)
    transposes_S200x11x80_p0_2_1_S200x80x11) shapeCasts_S200x80x11_S200x880) shapeCasts_S200x880_S1x200x880

/-- The length word the body reads: entry `b` of the table. -/
def lenWord (c : Dev nD) (i : grid0.Coords) (xt0 : TbBuf0 (F := F) c tbM0_0) : Elt F .i32 :=
  View.readAt (Elt F) tbM0_0.view (Rect.unit (s := S32) (k0_off1 i) S1.size (k0_off1_inb i)).toLoadRect xt0 (Shape.Idx.first ((numel1_S1 : (Rect.unit (s := S32) (k0_off1 i) S1.size (k0_off1_inb i)).shape.numel = 1).symm ▸ Nat.one_pos))

theorem hz2 : (![0, 0] : Fin 2 → Nat) = fun _ => 0 := by funext a; fin_cases a <;> rfl
theorem hz3 : (![0, 0, 0] : Fin 3 → Nat) = fun _ => 0 := by funext a; fin_cases a <;> rfl

/-- A load of the scratch after a store of the whole scratch reads that store's value, whatever was stored before. -/
theorem read_scratch_top (v : View sig .tc .vmem S2000x80 .f32) (f : v.ty.Contents (Elt F)) (w : S2000x80.Idx → Elt F .f32)
    (L : List (View.Piece (Elt F) S2000x80 .f32)) :
    v.read (Elt F) (v.writes (Elt F) f ((⟨Rect.unit ![0, 0] S2000x80.size inb_S2000x80_S2000x80_0_0, w⟩ : View.Piece (Elt F) S2000x80 .f32) :: L)) = w := by
  rw [View.read_writes_eq_canon _ _ _ (fun y => ⟨_, List.mem_cons_self, View.mem_set_unit_zero hz2 inb_S2000x80_S2000x80_0_0 y⟩), View.canon_cons_unit_zero hz2]

/-- What the body leaves in the output's staging buffer at a point is the point's tile, of the staged sequence and
    the table's word. -/
theorem out_eq_tile (c : Dev nD) (i : grid0.Coords) (arg3 : Memref sig .tc .vmem S1x2000x80 .f32) (harg3 : arg3.IsWhole) (arg4 : Memref sig .tc .vmem S1x200x880 .f32) (harg4 : arg4.IsWhole) (arg5 : Memref sig .tc .vmem S2000x80 .f32) (harg5 : arg5.IsWhole)
    (x0 : Vec F S1x2000x80 .f32) (xt0 : TbBuf0 (F := F) c tbM0_0) :
    out0_A_1 c i arg3 harg3 arg4 harg4 arg5 harg5 x0 xt0 = tile i (lenWord c i xt0) x0 := by
  unfold out0_A_1
  rw [View.read_writes_eq_canon _ _ _ (cover0_A_1 c i arg3 harg3 arg4 harg4 arg5 harg5 x0 xt0)]
  unfold kernelRun0_A
  dsimp only
  sl_unfold_words
  rw [View.canon_unit_zero hz3]
  simp only [View.readAt_eq_ld, harg3.read_unread, View.ld_unit_zero (S := S1x2000x80) hz3]
  repeat rw [read_scratch_top]
  rfl

end Cert.KernelIdeal.Tile

end
-- ==== Proof.Spec.lean ====
/-
  The context window as ONE function of the two argument arrays.

  The input is 32 sequences of 2000 frames of 80 channels. Frame `t` of a sequence is laid beside its five
  predecessors and its five successors: output column `c * 11 + k` of frame `t` is channel `c` of frame `t + k - 5`
  (`tap`), and a frame before the first or past the last counts as zero. Each sequence `b` then keeps only the frames
  before its length word: the word is compared, as a signed 32-bit number, with the frame's own number, and the
  comparison's bit, read as 0 or 1, multiplies the frame (`keep`).
-/
import Idealize.ShloMosaic.PureOps.Ideal
import Idealize.ShloMosaic.Lib.ValueIdx

noncomputable section

namespace Cert.Window

open Idealize.ShloMosaic Idealize.ShloMosaic.ValueIdx

/-- The input's shape, the length vector's and the result's. -/
abbrev SX : Shape := ⟨3, ![32, 2000, 80]⟩
abbrev SLen : Shape := ⟨1, ![32]⟩
abbrev SOut : Shape := ⟨3, ![32, 2000, 880]⟩

/-- Channel `c` of frame `t + k - 5` of sequence `b`; zero when that frame is before the first or past the last. -/
def tap (x : SX.Idx → EReal) (b : Fin 32) (t : Fin 2000) (c : Fin 80) (k : Fin 11) : EReal :=
  if h : 5 ≤ t.val + k.val ∧ t.val + k.val < 2005 then x (ix3 b ⟨t.val + k.val - 5, by omega⟩ c) else 0

/-- The length mask's factor at frame `t` of sequence `b`: the bit of "frame number below the length word", signed,
    as the number 0 or 1. -/
def keep (len : SLen.Idx → BitVec 32) (b : Fin 32) (t : Fin 2000) : EReal :=
  (((IntOp.cmpi .slt (BitVec.ofNat 32 t.val) (len (ix1 b))).toNat : ℝ) : EReal)

/-- The column `q = c * 11 + k` of the result names channel `c = q / 11` and tap `k = q % 11`. -/
def chan (q : Fin 880) : Fin 80 := ⟨q.val / 11, by have := q.isLt; omega⟩
def tapNo (q : Fin 880) : Fin 11 := ⟨q.val % 11, Nat.mod_lt _ (by decide)⟩

/-- The result array: at sequence `b`, frame `t`, column `q`, the tap times the length mask's factor. -/
def window (x : SX.Idx → EReal) (len : SLen.Idx → BitVec 32) : SOut.Idx → EReal := fun j =>
  tap x (j 0) (j 1) (chan (j 2)) (tapNo (j 2)) * keep len (j 0) (j 1)

theorem window_apply (x : SX.Idx → EReal) (len : SLen.Idx → BitVec 32) (b : Fin 32) (t : Fin 2000) (q : Fin 880) :
    window x len (ix3 b t q) = tap x b t (chan q) (tapNo q) * keep len b t := rfl

/-- The mask's factor is the number 0 or the number 1. -/
theorem keep_zero_or_one (len : SLen.Idx → BitVec 32) (b : Fin 32) (t : Fin 2000) : keep len b t = 0 ∨ keep len b t = 1 := by
  unfold keep
  generalize IntOp.cmpi .slt (BitVec.ofNat 32 t.val) (len (ix1 b)) = w
  have h : w.toNat = 0 ∨ w.toNat = 1 := by have := w.isLt; omega
  rcases h with h | h <;> rw [h] <;> simp

end Cert.Window

end
-- ==== Proof.TileAt.lean ====
/-
  The point's tile read one element at a time, at the ideal values: it is the specification's window.
-/
import proofs.«425264_j14869176779353_4_alg».proof.Proof.KernelTile
import proofs.«425264_j14869176779353_4_alg».proof.Proof.Spec
import Idealize.ShloMosaic.Lib.ValueIdx
import Idealize.ShloMosaic.Lib.ValueLayout
import Idealize.ShloMosaic.Lib.KernelVsHost

set_option maxRecDepth 16384

noncomputable section

namespace Cert.KernelIdeal.Tile

open Idealize.ShloMosaic Idealize.ShloMosaic.TcCoe Idealize.SL.Sem
open Idealize.ShloMosaic.ValueIdx
open Cert.KernelIdeal Cert.KernelIdeal.Gen Cert.Window

/-- The word of frame `200 n + r`: the tile's first frame, `n` times 200 as a word, plus row `r`'s word. -/
theorem frame_word : ∀ (n : Fin 10) (r : Fin 200),
    IntOp.addi (Scalar.muli (BitVec.ofNat 32 n.val) 200#32) (BitVec.ofNat 32 (0 * 200 + r.val)) = BitVec.ofNat 32 (200 * n.val + r.val) := by
  decide +kernel

/-- Row `r` of the tile at grid point `i` is frame `200 (i 1) + r`. -/
theorem frames_apply (i : grid0.Coords) (r : Fin 200) (u : Fin 1) :
    frames i (ix2 r u) = BitVec.ofNat 32 (200 * (i 1).val + r.val) := by
  unfold frames k0_pay3
  exact frame_word ⟨(i 1).val, (i 1).isLt⟩ r

/-- One element of tap `k`'s slab: channel `ch` of row `r`, where the row is frame `T` of the sequence. The turned sequence's
    frame `T` is the staged sequence's frame `T - turn k` around the end; the two factors are the two comparisons' bits. -/
theorem tapSlab_apply (i : grid0.Coords) (len : BitVec 32) (x0 : Vec Ideal S1x2000x80 .f32) (k : Fin 11) (r : Fin 200) (ch : Fin 80)
    (T : Fin 2000) (hT : T.val = 200 * (i 1).val + r.val) :
    tapSlab (F := Ideal) i len x0 k (ix3 r (0 : Fin 1) ch)
      = x0 (ix3 (0 : Fin 1) (⟨(T.val + 2000 - (turn k).toNat % 2000) % 2000, Nat.mod_lt _ (by decide)⟩ : Fin 2000) ch)
        * ((((IntOp.cmpi .slt (BitVec.ofNat 32 T.val) len).toNat : ℝ) : EReal)
           * (((if 5 ≤ T.val + k.val ∧ T.val + k.val < 2005 then (1#1 : BitVec 1) else 0#1).toNat : ℝ) : EReal)) := by
  unfold tapSlab
  rw [shapeCast_apply _ _ (ix3 r (0 : Fin 1) ch) (ix2 r ch) (by
    rw [Shape.rowMajor_val_two, Shape.rowMajor_val_three]
    show r.val * 80 + ch.val = (r.val * 1 + 0) * 80 + ch.val
    omega)]
  unfold slab
  rw [mulf_apply, broadcastTo_apply _ broadcasts_S200x1_S200x80 (ix2 r ch) (ix2 r (0 : Fin 1)) (fun a => match a with
      | ⟨0, _⟩ => by show r.val = if (200 : ℕ) = 1 then 0 else r.val; simp
      | ⟨1, _⟩ => by show (0 : ℕ) = if (1 : ℕ) = 1 then 0 else ch.val; simp), mulf_apply]
  have hw : frames i (ix2 r (0 : Fin 1)) = BitVec.ofNat 32 T.val := (frames_apply i r 0).trans (by rw [hT])
  refine congrArg₂ (· * ·) ?_ (congrArg₂ (· * ·) ?_ ?_)
  · -- the loaded frames: row `r` of the tile is frame `T` of the turned sequence
    unfold rows turned
    have hj0 : ((Rect.unit (s := S2000x80) (k0_off2 i) S200x80.size (k0_off2_inb i)).idx (ix2 r ch) 0).val = T.val := by
      show k0_off2 i 0 + 1 * r.val = _
      rw [k0_off2_eq]
      show 200 * (i 1).val + 1 * r.val = _
      omega
    have hj1 : ((Rect.unit (s := S2000x80) (k0_off2 i) S200x80.size (k0_off2_inb i)).idx (ix2 r ch) 1).val = ch.val := by
      show k0_off2 i 1 + 1 * ch.val = _
      rw [k0_off2_eq]
      show 0 + 1 * ch.val = _
      omega
    show shapeCast S2000x80 _ _ ((Rect.unit (s := S2000x80) (k0_off2 i) S200x80.size (k0_off2_inb i)).idx (ix2 r ch)) = _
    rw [shapeCast_self]
    rw [dynamicRotate_apply 0 (turn k) _ rotates_S2000x80_d0 _
      (ix2 (⟨(T.val + 2000 - (turn k).toNat % 2000) % 2000, Nat.mod_lt _ (by decide)⟩ : Fin 2000) ch) (fun b => match b with
        | ⟨0, _⟩ => by
            show (T.val + 2000 - (turn k).toNat % 2000) % 2000 = if (0 : Fin 2) = 0 then (_ + 2000 - (turn k).toNat % 2000) % 2000 else _
            rw [if_pos rfl]
            exact (congrArg (fun v => (v + 2000 - (turn k).toNat % 2000) % 2000) hj0).symm
        | ⟨1, _⟩ => by
            show ch.val = if (1 : Fin 2) = 0 then _ else _
            rw [if_neg (by decide)]
            exact hj1.symm)]
    exact shapeCast_1ab_ab_apply x0 _ _ ch
  · -- the length factor: the bit of "frame word below the length word"
    unfold lenFactor k0_pay4
    show ((((IntOp.cmpi .slt (frames i (ix2 r (0 : Fin 1))) len).setWidth 32).toInt : ℝ) : EReal) = _
    rw [hw, toInt_setWidth_bit]
    norm_cast
  · -- the tap's factor: the bit of "the tapped frame is a frame of the sequence"
    show ((((IntOp.andi (IntOp.cmpi .sge (IntOp.addi (frames i (ix2 r (0 : Fin 1))) (offs k)) 0#32)
      (IntOp.cmpi .slt (IntOp.addi (frames i (ix2 r (0 : Fin 1))) (offs k)) 2000#32)).setWidth 32).toInt : ℝ) : EReal) = _
    rw [hw, inside_bit T k, toInt_setWidth_bit]
    norm_cast

/-- One element of the point's tile is the specification's window there: the element at row `r`, column `q` of the
    tile is channel `q / 11`, tap `q % 11` of frame `T = 200 n + r`; where the tapped frame exists the kernel's product
    `x · (keep · 1)` is the window's `x · keep`, and where it does not, `x' · (keep · 0)` and `0 · keep` are both zero —
    over the extended reals a product with zero is zero whatever the other factor. -/
theorem tile_window (i : grid0.Coords) (b : Fin 32) (len : BitVec 32) (x0 : Vec Ideal S1x2000x80 .f32)
    (X : SX.Idx → EReal) (L : SLen.Idx → BitVec 32)
    (hx : ∀ (f : Fin 2000) (c : Fin 80), x0 (ix3 (0 : Fin 1) f c) = X (ix3 b f c)) (hL : len = L (ix1 b))
    (u : Fin 1) (r : Fin 200) (q : Fin 880) (T : Fin 2000) (hT : T.val = 200 * (i 1).val + r.val) :
    tile (F := Ideal) i len x0 (ix3 u r q) = window X L (ix3 b T q) := by
  have hq := q.isLt
  unfold tile
  rw [shapeCast_ab_1ab_apply _ _ u r q]
  rw [shapeCast_apply _ _ (ix2 r q) (ix3 r (chan q) (tapNo q)) (by
    rw [Shape.rowMajor_val_two, Shape.rowMajor_val_three]
    show (r.val * 80 + q.val / 11) * 11 + q.val % 11 = r.val * 880 + q.val
    omega)]
  rw [transpose_ix3_021_apply _ _ r (chan q) (tapNo q)]
  show concatenate S200x11x80 1 (List.ofFn fun k : Fin 11 => (⟨S200x1x80, tapSlab (F := Ideal) i len x0 k⟩ : (s : Shape) × (s.Idx → Ideal .f32)))
    concatenates_S200x1x80_S200x1x80_S200x1x80_S200x1x80_S200x1x80_S200x1x80_S200x1x80_S200x1x80_S200x1x80_S200x1x80_S200x1x80_S200x11x80_d1 (ix3 r (tapNo q) (chan q)) = _
  refine (concatenate_ofFn_unit_apply (t := S200x11x80) (s₁ := S200x1x80) (1 : Fin 3) (fun k => tapSlab (F := Ideal) i len x0 k) _ rfl rfl
    (ix3 r (tapNo q) (chan q)) (tapNo q) rfl (ix3 r (0 : Fin 1) (chan q))
    (fun a ha => match a, ha with
      | ⟨0, _⟩, _ => rfl
      | ⟨1, _⟩, ha => absurd rfl ha
      | ⟨2, _⟩, _ => rfl)).trans ?_
  rw [tapSlab_apply i len x0 (tapNo q) r (chan q) T hT, window_apply, hx, hL]
  unfold tap keep
  by_cases h : 5 ≤ T.val + (tapNo q).val ∧ T.val + (tapNo q).val < 2005
  · rw [if_pos h, dif_pos h]
    rw [show (⟨(T.val + 2000 - (turn (tapNo q)).toNat % 2000) % 2000, Nat.mod_lt _ (by decide)⟩ : Fin 2000)
        = ⟨T.val + (tapNo q).val - 5, by omega⟩ from Fin.ext (turned_frame T (tapNo q) h.1 h.2)]
    simp
  · rw [if_neg h, dif_neg h]
    simp

/-- The same over any index `y` of the tile and the index `z` of the array it lands on: sequence `b`, frame
    `200 n + (y 1)`, the same column. -/
theorem tile_window_at (i : grid0.Coords) (b : Fin 32) (len : BitVec 32) (x0 : Vec Ideal S1x2000x80 .f32)
    (X : SX.Idx → EReal) (L : SLen.Idx → BitVec 32)
    (hx : ∀ (f : Fin 2000) (c : Fin 80), x0 (ix3 (0 : Fin 1) f c) = X (ix3 b f c)) (hL : len = L (ix1 b))
    (y : S1x200x880.Idx) (z : SOut.Idx) (hz0 : (z 0).val = b.val) (hz1 : (z 1).val = 200 * (i 1).val + (y 1).val)
    (hz2 : (z 2).val = (y 2).val) :
    tile (F := Ideal) i len x0 y = window X L z := by
  obtain ⟨u, r, q, rfl⟩ : ∃ (u : Fin 1) (r : Fin 200) (q : Fin 880), y = ix3 u r q := ⟨y 0, y 1, y 2, eq_ix3 y⟩
  have h10 : (i 1).val < 10 := (i 1).isLt
  have hr := r.isLt
  have hz : z = ix3 b (⟨200 * (i 1).val + r.val, by omega⟩ : Fin 2000) q := funext fun a => match a with
    | ⟨0, _⟩ => Fin.ext hz0
    | ⟨1, _⟩ => Fin.ext hz1
    | ⟨2, _⟩ => Fin.ext hz2
  rw [hz]
  exact tile_window i b len x0 X L hx hL u r q _ rfl

end Cert.KernelIdeal.Tile

end
-- ==== Proof.KernelArray.lean ====
/-
  From the tiles to the array: what each grid point writes back is a block of the window, the blocks tile the result
  array, and the table the region reads holds the length words @main computed from `lengths`. So the kernel's run ends
  with the result array at the specification's window of its two arguments.
-/
import proofs.«425264_j14869176779353_4_alg».proof.Proof.TileAt
import Idealize.ShloMosaic.Lib.Pipeline.Value
import Idealize.ShloMosaic.Lib.StableHlo.Run

set_option maxRecDepth 16384

noncomputable section

namespace Cert.KernelIdeal.Tile

open Idealize.ShloMosaic Idealize.ShloMosaic.TcCoe Idealize.SL.Sem
open Idealize.ShloMosaic.Pipeline (Dat)
open Idealize.ShloMosaic.ValueIdx
open Cert.KernelIdeal Cert.KernelIdeal.Gen Cert.Window

variable (m : (ℓ : Loc nD τ sig) → Buf (Elt Ideal) ℓ) (ρ : Dev nD → PrngReg)

/-- Grid point `t` is sequence `t / 10`, tile `t % 10`: the input's block there is the whole sequence `t / 10`, the
    result's block the tile's 200 frames of it. Decided over the 320 points. -/
theorem point_facts : ∀ t : Fin grid0.N,
    (grid0.coords t 0).val = t.val / 10 ∧ (grid0.coords t 1).val = t.val % 10
    ∧ cc0_transform_0 (grid0.coords t) = ![t.val / 10, 0, 0]
    ∧ cc0_transform_1 (grid0.coords t) = ![t.val / 10, t.val % 10, 0] := by
  decide +kernel

/-- The input's block at point `t`: frame `f`, channel `ch` of it is the array's sequence `t / 10` there. -/
theorem iblk_apply (hO : Ok m) (c : Dev nD) (t : Fin (cfgM m hO).N) (b : Fin 32) (hb : b.val = t.val / 10) (f : Fin 2000) (ch : Fin 80) :
    iblk m hO c 0 t (ix3 (0 : Fin 1) f ch) = V m c main_arg0 (ix3 b f ch) := by
  unfold iblk
  show V m c main_arg0 ((((cfgM m hO).win 0).blk t).view.emb (ix3 (0 : Fin 1) f ch)) = V m c main_arg0 _
  congr 1
  funext a
  apply Fin.ext
  match a with
  | ⟨0, _⟩ => show cc0_transform_0 (grid0.coords t) 0 * 1 + 1 * 0 = b.val; rw [(point_facts t).2.2.1, hb]; simp
  | ⟨1, _⟩ => show cc0_transform_0 (grid0.coords t) 1 * 2000 + 1 * f.val = f.val; rw [(point_facts t).2.2.1]; simp
  | ⟨2, _⟩ => show cc0_transform_0 (grid0.coords t) 2 * 80 + 1 * ch.val = ch.val; rw [(point_facts t).2.2.1]; simp

/-- The length word the body reads at a point of sequence `b` is entry `b` of the table. -/
theorem lenWord_apply (c : Dev nD) (i : grid0.Coords) (xt0 : TbBuf0 (F := Ideal) c tbM0_0) (b : Fin 32) (hb : (i 0).val = b.val) :
    lenWord c i xt0 = xt0 (ix1 b) := by
  unfold lenWord
  rw [View.readAt_eq_ld]
  simp only [Memref.view_whole, View.read_whole]
  show xt0 ((Rect.unit (s := S32) (k0_off1 i) S1.size (k0_off1_inb i)).idx (Shape.Idx.first _)) = xt0 (ix1 b)
  congr 1
  funext a
  apply Fin.ext
  match a with
  | ⟨0, _⟩ =>
    show k0_off1 i 0 + 1 * 0 = b.val
    rw [k0_off1_eq]
    show (i 0).val + 1 * 0 = b.val
    omega

/-- What the body leaves in the result's staging buffer at point `t` is the point's tile of the staged sequence and the
    table's word. -/
theorem outsAt_eq (hO : Ok m) (c : Dev nD) (t : Fin (cfgM m hO).N) :
    outsAt0 m hO c t = tile (grid0.coords t) (lenWord c (grid0.coords t) (tbl m 0)) (iblk m hO c 0 t) := by
  unfold outsAt0
  exact out_eq_tile c (grid0.coords t) (ms0_0 m hO t) (hs0_0 m hO t) (ms0_1 m hO t) (hs0_1 m hO t) scM0_0 (Memref.isWhole_whole _) (iblk m hO c 0 t) (tbl m 0)

/-- The tile as a function of the array index its element lands on. -/
theorem tile_block (i : grid0.Coords) (b : Fin 32) (len : BitVec 32) (x0 : Vec Ideal S1x2000x80 .f32)
    (X : SX.Idx → EReal) (L : SLen.Idx → BitVec 32)
    (hx : ∀ (f : Fin 2000) (c : Fin 80), x0 (ix3 (0 : Fin 1) f c) = X (ix3 b f c)) (hL : len = L (ix1 b))
    (e : S1x200x880.Idx → SOut.Idx)
    (he0 : ∀ y, (e y 0).val = b.val) (he1 : ∀ y, (e y 1).val = 200 * (i 1).val + (y 1).val) (he2 : ∀ y, (e y 2).val = (y 2).val) :
    tile (F := Ideal) i len x0 = fun y => window X L (e y) :=
  funext fun y => tile_window_at i b len x0 X L hx hL y (e y) (he0 y) (he1 y) (he2 y)

/-- What point `t` writes back is block `t` of the window of the input array under the table's length words. -/
theorem flushed_eq (hO : Ok m) (c : Dev nD) (t : Fin (cfgM m hO).N) :
    (dats m hO 0 c).flushed 1 t
      = (((cfgM m hO).win 1).blk t).view.read (Elt Ideal) (window (V m c main_arg0) (tbl m 0)) := by
  show ((cfgM m hO).win 1).cut (grid0.coords t) ((dats m hO 0 c).after 1 t) = _
  rw [after0_1, outsAt_eq]
  have hN : t.val < 320 := (show t.val < grid0.N from t.isLt).trans_eq N_0
  obtain ⟨p0, p1, p2, p3⟩ := point_facts t
  funext j
  refine congrFun (tile_block (grid0.coords t) (⟨t.val / 10, by omega⟩ : Fin 32) _ _ (V m c main_arg0) (tbl m 0)
    (fun f ch => iblk_apply m hO c t _ rfl f ch) (lenWord_apply c (grid0.coords t) (tbl m 0) _ p0)
    (fun y => (((cfgM m hO).win 1).blk t).view.emb y) ?_ ?_ ?_) j
  · intro y
    show cc0_transform_1 (grid0.coords t) 0 * 1 + 1 * (y 0).val = t.val / 10
    have : (y 0).val < 1 := (y 0).isLt
    rw [p3]; show t.val / 10 * 1 + 1 * (y 0).val = _; omega
  · intro y
    show cc0_transform_1 (grid0.coords t) 1 * 200 + 1 * (y 1).val = 200 * (grid0.coords t 1).val + (y 1).val
    rw [p3, p1]; show t.val % 10 * 200 + 1 * (y 1).val = _; omega
  · intro y
    show cc0_transform_1 (grid0.coords t) 2 * 880 + 1 * (y 2).val = (y 2).val
    rw [p3]; show 0 * 880 + 1 * (y 2).val = _; omega

/-- An index of the result array is in point `t`'s block iff each coordinate is in the block's range on its axis. -/
theorem mem_blk (hO : Ok m) (t : Fin (cfgM m hO).N) (i : S32x2000x880.Idx) :
    i ∈ (((cfgM m hO).win 1).blk t).view.set ↔ ∀ a : Fin 3,
      cc0_transform_1 (grid0.coords t) a * S1x200x880.size a ≤ (i a).val
        ∧ (i a).val < cc0_transform_1 (grid0.coords t) a * S1x200x880.size a + S1x200x880.size a := by
  have e : (((cfgM m hO).win 1).blk t).view.set = (((cfgM m hO).win 1).rect t).set := View.set_slice_whole main_v4 _
  refine (Eq.to_iff (congrArg (i ∈ ·) e)).trans ?_
  exact Rect.mem_set_unit

/-- Every (sequence, frame, column) of the result lies in the block of point `10 b + t / 200`. -/
theorem cover (hO : Ok m) (i : S32x2000x880.Idx) :
    ∃ t : Fin (cfgM m hO).N, ((cfgM m hO).win 1).flush t = true ∧ i ∈ (((cfgM m hO).win 1).blk t).view.set := by
  have h0 : (i 0).val < 32 := (i 0).isLt
  have h1 : (i 1).val < 2000 := (i 1).isLt
  have h2 : (i 2).val < 880 := (i 2).isLt
  have hlt : (i 0).val * 10 + (i 1).val / 200 < grid0.N := by rw [N_0]; omega
  refine ⟨⟨(i 0).val * 10 + (i 1).val / 200, hlt⟩, flush0_1 _ _, ?_⟩
  rw [mem_blk]
  obtain ⟨-, -, -, p3⟩ := point_facts ⟨(i 0).val * 10 + (i 1).val / 200, hlt⟩
  rw [p3]
  intro a
  match a with
  | ⟨0, _⟩ =>
    show ((i 0).val * 10 + (i 1).val / 200) / 10 * 1 ≤ (i 0).val ∧ (i 0).val < ((i 0).val * 10 + (i 1).val / 200) / 10 * 1 + 1
    omega
  | ⟨1, _⟩ =>
    show ((i 0).val * 10 + (i 1).val / 200) % 10 * 200 ≤ (i 1).val ∧ (i 1).val < ((i 0).val * 10 + (i 1).val / 200) % 10 * 200 + 200
    omega
  | ⟨2, _⟩ =>
    show 0 * 880 ≤ (i 2).val ∧ (i 2).val < 0 * 880 + 880
    omega

/-- THE ARRAY after the run: the blocks tile it, so it is the window of the input array under the table's length words. -/
theorem final (hO : Ok m) (c : Dev nD) :
    (dats m hO 0 c).arrAt 1 (cfgM m hO).N = window (V m c main_arg0) (tbl m 0) :=
  (dats m hO 0 c).arrAt_eq_of_cover 1 (window (V m c main_arg0) (tbl m 0)) (fun t _ => flushed_eq m hO c t) fun i => cover m hO i

/-- The length words as @main computes them before the region: `2000 · lengths`, rounded to the nearest integer (ties to
    even), converted to a signed word. -/
def lenWords (a1 : S32.Idx → EReal) : S32.Idx → BitVec 32 :=
  fptosi 32 (Host.roundeven (F := Ideal) (mulf (broadcastInDim S32 ![] bcast_S_S32 (constant (F := Ideal) S_ .f32 0x44FA0000#32)) a1))

/-- The table the region finds is those words of the `lengths` argument. -/
theorem tbl_eq : (tbl m 0 : S32.Idx → BitVec 32) = lenWords (m (((0 : Dev nD) : Thread nD τ).loc main_arg1)) := by
  unfold tbl lenWords
  show V m 0 main_v3 = _
  dsimp only [V]
  simp only [hostOps0, hostOps0_1, hostOps0_2, List.flatten_cons, List.flatten_nil, List.append_nil, List.cons_append, List.nil_append]
  after_results
  rfl

/-- The run, read: the result array is the window of the two arguments, which end as they began. -/
theorem run (hO : Ok m) : θ_run defs (onTc (τ := τ) (main (F := Ideal))) ⟨m, fun _ => 0, ρ⟩ fun r => ∀ c : Dev nD,
      r.2.mem ((c : Thread nD τ).loc main_v4) = window (m ((c : Thread nD τ).loc main_arg0)) (lenWords (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans ((final m hO c).trans (by
        obtain rfl : c = 0 := Subsingleton.elim _ _
        rw [V_main_arg0, tbl_eq])),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c)⟩)
    (run_main m ρ hO)

end Cert.KernelIdeal.Tile

end
-- ==== Proof.RefWindow.lean ====
/-
  The reference's result, one element at a time, is the context window of the specification.

  The reference pads the input with five zero frames on each side of the frame axis, cuts the eleven runs of 2000 frames
  that start at frames 0 … 10 of the padded array, lays them side by side on a new last axis, and folds that axis into the
  channel axis: column `c * 11 + k` of frame `t` is channel `c` of padded frame `t + k`, which is the input's frame
  `t + k - 5` when there is one and zero otherwise. The result is that array times the length mask.
-/
import proofs.«425264_j14869176779353_4_alg».proof.Proof.Gen.ReferenceIdeal.Read
import proofs.«425264_j14869176779353_4_alg».proof.Proof.Spec
import Idealize.ShloMosaic.Lib.Pipeline.Value
import Idealize.ShloMosaic.Lib.ValueIdx
import Idealize.ShloMosaic.Lib.KernelVsHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read Cert.Window

/-- The padded array at sequence `b`, padded frame `f`, channel `c`: the input's frame `f - 5` when `5 ≤ f < 2005`,
    and the padding value, the integer zero converted, otherwise. -/
theorem pad_apply (x : (⟨S32x2000x80, .f32⟩ : BufTy).Contents (Elt Ideal)) (b : Fin 32) (f : Fin 2010) (c : Fin 80) :
    val_main_v0 (F := Ideal) x (ix3 b f c)
      = if h : 5 ≤ f.val ∧ f.val < 2005 then x (ix3 b ⟨f.val - 5, by omega⟩ c) else 0 := by
  unfold val_main_v0
  split
  · next h =>
    exact pad_apply_of_inside _ _ _ x _ pads_S32x2000x80_S32x2010x80_000_550_000 h_S_ _ (ix3 b ⟨f.val - 5, by omega⟩ c)
      (fun a => match a with
        | ⟨0, _⟩ => by show b.val = 0 + b.val * (0 + 1); omega
        | ⟨1, _⟩ => by show f.val = 5 + (f.val - 5) * (0 + 1); omega
        | ⟨2, _⟩ => by show c.val = 0 + c.val * (0 + 1); omega)
  · next h =>
    refine (pad_apply_of_not_inside _ _ _ x _ pads_S32x2000x80_S32x2010x80_000_550_000 h_S_ _ (1 : Fin 3) ?_).trans ?_
    · show ¬(5 ≤ f.val ∧ (f.val - 5) % (0 + 1) = 0 ∧ (f.val - 5) / (0 + 1) < 2000)
      omega
    · show ((((0#32 : BitVec 32).toInt : ℤ) : ℝ) : EReal) = 0
      simp

/-- The padded array read at an index whose coordinates are `b`, `k + t` and `c` is the specification's tap. -/
theorem frame_apply (x : (⟨S32x2000x80, .f32⟩ : BufTy).Contents (Elt Ideal)) (b : Fin 32) (t : Fin 2000) (c : Fin 80)
    (k : Fin 11) (j : S32x2010x80.Idx) (h0 : (j 0).val = b.val) (h1 : (j 1).val = k.val + t.val)
    (h2 : (j 2).val = c.val) :
    val_main_v0 (F := Ideal) x j = tap x b t c k := by
  have ht := t.isLt
  have hk := k.isLt
  have e : j = ix3 b (⟨t.val + k.val, by omega⟩ : Fin 2010) c := funext fun a => match a with
    | ⟨0, _⟩ => Fin.ext h0
    | ⟨1, _⟩ => Fin.ext (by show (j 1).val = t.val + k.val; omega)
    | ⟨2, _⟩ => Fin.ext h2
  rw [e, pad_apply]
  rfl

/-- The eleven arrays joined along the last axis, as one family over the tap number. -/
def pieces (x : (⟨S32x2000x80, .f32⟩ : BufTy).Contents (Elt Ideal)) (k : Fin 11) : S32x2000x80x1.Idx → EReal :=
  match k with
  | ⟨0, _⟩ => val_main_v12 (F := Ideal) x
  | ⟨1, _⟩ => val_main_v13 (F := Ideal) x
  | ⟨2, _⟩ => val_main_v14 (F := Ideal) x
  | ⟨3, _⟩ => val_main_v15 (F := Ideal) x
  | ⟨4, _⟩ => val_main_v16 (F := Ideal) x
  | ⟨5, _⟩ => val_main_v17 (F := Ideal) x
  | ⟨6, _⟩ => val_main_v18 (F := Ideal) x
  | ⟨7, _⟩ => val_main_v19 (F := Ideal) x
  | ⟨8, _⟩ => val_main_v20 (F := Ideal) x
  | ⟨9, _⟩ => val_main_v21 (F := Ideal) x
  | ⟨10, _⟩ => val_main_v22 (F := Ideal) x

/-- Piece `k` at sequence `b`, frame `t`, channel `c` is the run of the padded array that starts at frame `k`, read at
    frame `t`: the tap. -/
theorem pieces_apply (x : (⟨S32x2000x80, .f32⟩ : BufTy).Contents (Elt Ideal)) (k : Fin 11) (b : Fin 32) (t : Fin 2000)
    (c : Fin 80) (d : Fin 1) : pieces x k (ix4 b t c d) = tap x b t c k := by
  match k with
  | ⟨0, _⟩ => exact (val_main_v12_apply x _).trans ((val_main_v1_apply x _).trans (frame_apply x b t c _ _ rfl (Nat.zero_add _).symm rfl))
  | ⟨1, _⟩ => exact (val_main_v13_apply x _).trans ((val_main_v2_apply x _).trans (frame_apply x b t c _ _ rfl rfl rfl))
  | ⟨2, _⟩ => exact (val_main_v14_apply x _).trans ((val_main_v3_apply x _).trans (frame_apply x b t c _ _ rfl rfl rfl))
  | ⟨3, _⟩ => exact (val_main_v15_apply x _).trans ((val_main_v4_apply x _).trans (frame_apply x b t c _ _ rfl rfl rfl))
  | ⟨4, _⟩ => exact (val_main_v16_apply x _).trans ((val_main_v5_apply x _).trans (frame_apply x b t c _ _ rfl rfl rfl))
  | ⟨5, _⟩ => exact (val_main_v17_apply x _).trans ((val_main_v6_apply x _).trans (frame_apply x b t c _ _ rfl rfl rfl))
  | ⟨6, _⟩ => exact (val_main_v18_apply x _).trans ((val_main_v7_apply x _).trans (frame_apply x b t c _ _ rfl rfl rfl))
  | ⟨7, _⟩ => exact (val_main_v19_apply x _).trans ((val_main_v8_apply x _).trans (frame_apply x b t c _ _ rfl rfl rfl))
  | ⟨8, _⟩ => exact (val_main_v20_apply x _).trans ((val_main_v9_apply x _).trans (frame_apply x b t c _ _ rfl rfl rfl))
  | ⟨9, _⟩ => exact (val_main_v21_apply x _).trans ((val_main_v10_apply x _).trans (frame_apply x b t c _ _ rfl rfl rfl))
  | ⟨10, _⟩ => exact (val_main_v22_apply x _).trans ((val_main_v11_apply x _).trans (frame_apply x b t c _ _ rfl rfl rfl))

/-- The joined array at sequence `b`, frame `t`, channel `c`, position `k` of the last axis is piece `k` there: the tap. -/
theorem stack_apply (x : (⟨S32x2000x80, .f32⟩ : BufTy).Contents (Elt Ideal)) (b : Fin 32) (t : Fin 2000) (c : Fin 80)
    (k : Fin 11) : val_main_v23 (F := Ideal) x (ix4 b t c k) = tap x b t c k := by
  have e : val_main_v23 (F := Ideal) x
      = concatenate S32x2000x80x11 3
          (List.ofFn fun n : Fin 11 => (⟨S32x2000x80x1, pieces x n⟩ : (s : Shape) × (s.Idx → EReal)))
          concatenates_S32x2000x80x1_S32x2000x80x1_S32x2000x80x1_S32x2000x80x1_S32x2000x80x1_S32x2000x80x1_S32x2000x80x1_S32x2000x80x1_S32x2000x80x1_S32x2000x80x1_S32x2000x80x1_S32x2000x80x11_d3 := rfl
  rw [e]
  refine (concatenate_ofFn_unit_apply (t := S32x2000x80x11) (s₁ := S32x2000x80x1) (3 : Fin 4) (pieces x) _ rfl rfl (ix4 b t c k) k rfl (ix4 b t c (0 : Fin 1))
    (fun a ha => match a, ha with
      | ⟨0, _⟩, _ => rfl
      | ⟨1, _⟩, _ => rfl
      | ⟨2, _⟩, _ => rfl
      | ⟨3, _⟩, ha => absurd rfl ha)).trans ?_
  exact pieces_apply x k b t c 0

/-- With the last two axes folded into one, column `q` of frame `t` is position `q % 11` of channel `q / 11`. -/
theorem fold_apply (x : (⟨S32x2000x80, .f32⟩ : BufTy).Contents (Elt Ideal)) (b : Fin 32) (t : Fin 2000) (q : Fin 880) :
    val_main_v24 (F := Ideal) x (ix3 b t q) = tap x b t (chan q) (tapNo q) := by
  have hb := b.isLt
  have ht := t.isLt
  have hq := q.isLt
  have e : idx_main_v24 (ix3 b t q) = ix4 b t (chan q) (tapNo q) := funext fun a => match a with
    | ⟨0, _⟩ => Fin.ext (by show ((b.val * 2000 + t.val) * 880 + q.val) / 1760000 = b.val; omega)
    | ⟨1, _⟩ => Fin.ext (by show ((b.val * 2000 + t.val) * 880 + q.val) / 880 % 2000 = t.val; omega)
    | ⟨2, _⟩ => Fin.ext (by show ((b.val * 2000 + t.val) * 880 + q.val) / 11 % 80 = q.val / 11; omega)
    | ⟨3, _⟩ => Fin.ext (by show ((b.val * 2000 + t.val) * 880 + q.val) % 11 = q.val % 11; omega)
  rw [val_main_v24_apply, e, stack_apply]

/-- The mask at sequence `b`, frame `t`, any column: the frame's number compared, signed, with the sequence's length word,
    the comparison's bit read as a number. -/
theorem mask_apply (a1 : (⟨S32, .f32⟩ : BufTy).Contents (Elt Ideal)) (b : Fin 32) (t : Fin 2000) (q : Fin 880) :
    val_main_v37 (F := Ideal) a1 (ix3 b t q) = keep (val_main_v28 (F := Ideal) a1) b t := by
  have e : idx_main_v31 (idx_main_v33 (idx_main_v36 (idx_main_v37 (ix3 b t q)))) = ix1 b :=
    funext fun a => match a with | ⟨0, _⟩ => rfl
  rw [val_main_v37_apply, val_main_v36_apply, val_main_v35_apply, val_main_v34_apply, val_main_v32_apply,
    val_main_v30_apply, val_main_v29_apply, val_main_v33_apply, val_main_v31_apply, e]
  rfl

/-- The reference's result is the specification's window of the input under the reference's own length words. -/
theorem result_eq (x : (⟨S32x2000x80, .f32⟩ : BufTy).Contents (Elt Ideal)) (a1 : (⟨S32, .f32⟩ : BufTy).Contents (Elt Ideal)) :
    Cert.ReferenceIdeal.Read.val_main_v38 (F := Ideal) x a1 = Cert.Window.window x (Cert.ReferenceIdeal.Read.val_main_v28 (F := Ideal) a1) := by
  funext j
  obtain ⟨b, t, q, rfl⟩ : ∃ (b : Fin 32) (t : Fin 2000) (q : Fin 880), j = ix3 b t q := ⟨j 0, j 1, j 2, eq_ix3 j⟩
  rw [window_apply, val_main_v38_apply, fold_apply, mask_apply]
  rfl

end Cert.ReferenceIdeal.RefValue

end
-- ==== Proof.lean ====
/-
  The context-window kernel against its reference, over the extended reals.

  Both programs compute, for each of 32 sequences of 2000 frames of 80 channels, the frame laid beside its five
  predecessors and five successors (zero past either end), channel-major, and zero every frame at or after the
  sequence's length word `round(2000 · lengths[b])`. The kernel takes a tile of 200 frames per grid point and finds tap
  `k` by turning the whole sequence round by `5 - k` frames, masking the frames that wrapped; the reference pads, slices
  and concatenates. Both are the one function `Cert.Window.window` of the arguments (Proof/Spec.lean):
  Proof/KernelArray.lean reads it off the kernel's run, tile by tile, and Proof/RefWindow.lean off the reference's
  run, operation by operation. No property of the inputs is used: a masked entry is a product with the number
  zero, which is zero for every extended real.

  The frames: the kernel's index maps do not read the prefetched table, so the side condition on its contents is
  `True`; the reference's frame is its run with the result dropped. The ideal pass rewrote nothing, so `preserves` is `True`.
-/
import proofs.«425264_j14869176779353_4_alg».proof.Defs
import proofs.«425264_j14869176779353_4_alg».proof.Proof.Gen.Kernel
import proofs.«425264_j14869176779353_4_alg».proof.Proof.Gen.Kernel.Skeleton
import proofs.«425264_j14869176779353_4_alg».proof.Proof.Gen.Kernel.Launch
import proofs.«425264_j14869176779353_4_alg».proof.Proof.Gen.Kernel.Points
import proofs.«425264_j14869176779353_4_alg».proof.Proof.Gen.Kernel.Frame
import proofs.«425264_j14869176779353_4_alg».proof.Proof.Gen.KernelIdeal
import proofs.«425264_j14869176779353_4_alg».proof.Proof.Gen.KernelIdeal.Skeleton
import proofs.«425264_j14869176779353_4_alg».proof.Proof.Gen.KernelIdeal.Launch
import proofs.«425264_j14869176779353_4_alg».proof.Proof.Gen.KernelIdeal.Points
import proofs.«425264_j14869176779353_4_alg».proof.Proof.Gen.KernelIdeal.Frame
import proofs.«425264_j14869176779353_4_alg».proof.Proof.Gen.ReferenceIdeal
import proofs.«425264_j14869176779353_4_alg».proof.Proof.Gen.Pre_finite_inputs
import proofs.«425264_j14869176779353_4_alg».proof.Proof.Gen.ReferenceIdeal.Run
import proofs.«425264_j14869176779353_4_alg».proof.Proof.Gen.ReferenceIdeal.Read
import proofs.«425264_j14869176779353_4_alg».proof.Proof.KernelArray
import proofs.«425264_j14869176779353_4_alg».proof.Proof.RefWindow
import Idealize.ShloMosaic.Adequacy
import Idealize.ShloMosaic.Init

noncomputable section

namespace Cert.Proof

open Idealize.ShloMosaic Idealize.ShloMosaic.TcCoe Idealize.SL.Sem

/-- The word-level kernel runs and keeps its arguments: the table's side condition is `True`. -/
theorem frame_k : @Cert.frame_Kernel Cert.Kernel.Gen.facts Cert.Pre_finite_inputs.Gen.facts :=
  fun m ρ _ => Cert.Kernel.Gen.frame m ρ trivial

/-- The same of the kernel read at the ideal values. -/
theorem frame_ki : @Cert.frame_KernelIdeal Cert.KernelIdeal.Gen.facts Cert.Pre_finite_inputs.Gen.facts :=
  fun m ρ _ => Cert.KernelIdeal.Gen.frame m ρ trivial

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The reference's length words are the kernel's: the same four operations of `lengths`. -/
theorem lens_eq (a1 : (⟨Cert.ReferenceIdeal.S32, .f32⟩ : BufTy).Contents (Elt Ideal)) :
    Cert.ReferenceIdeal.Read.val_main_v28 (F := Ideal) a1 = Cert.KernelIdeal.Tile.lenWords a1 := rfl

/-- Both runs end with the result at the window of the arguments: the kernel's by its tiles, the reference's by its
    operations, the arguments agreeing. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Tile.run m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.result_eq, lens_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
